-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x128 : Shape := ⟨3, ![512, 128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S512x128x128 : S_.BroadcastsInDim S512x128x128 (![] : Fin 0 → Fin S512x128x128.rank)
  reducesTo_S512x128x128_S_d0_1_2 : S512x128x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256 .f32) (main_arg8 : FVec F S256x1 .f32) (main_arg9 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg8
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x1 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x128x128 .f32) (main_arg1 : FVec F S512x128x128 .f32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x1 .f32) (main_arg9 : FVec F S1 .f32) : IVec S_ 1 :=
  let main_v0 : FVec F S512x128x128 .f32 := Host.absf main_arg0
  let main_cst : FVec F S_ .f32 := constant S_ .f32 0x7F800000#32
  let main_v1 : FVec F S512x128x128 .f32 := broadcastInDim S512x128x128 ![] bcast_S_S512x128x128 main_cst
  let main_v2 : IVec S512x128x128 1 := cmpf .olt main_v0 main_v1
  let main_c : IVec S_ 1 := constantI S_ 1 1#1
  let main_v3 : IVec S_ 1 := (fun x v => Host.reduce IntOp.andi x v reducesTo_S512x128x128_S_d0_1_2 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S512x128x128 : Shape := ⟨3, ![512, 128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S512x1 : Shape := ⟨2, ![512, 1]⟩
abbrev S8x128x128 : Shape := ⟨3, ![8, 128, 128]⟩
abbrev S8x1 : Shape := ⟨2, ![8, 1]⟩
abbrev S1024x128 : Shape := ⟨2, ![1024, 128]⟩
abbrev S1024x256 : Shape := ⟨2, ![1024, 256]⟩
abbrev S8x128x256 : Shape := ⟨3, ![8, 128, 256]⟩
abbrev S1x1x256 : Shape := ⟨3, ![1, 1, 256]⟩
abbrev S8x256 : Shape := ⟨2, ![8, 256]⟩
abbrev S1x1 : Shape := ⟨2, ![1, 1]⟩
abbrev S512 : Shape := ⟨1, ![512]⟩

abbrev nBuf : Space → Nat
  | .hbm => 12
  | .vmem => 14
  | .smem => 0
  | _ => 0

abbrev bufTy : (tb : Table) → Fin (tcTables nBuf tb) → BufTy
  | .hbm, ⟨0, _⟩ => ⟨S512x128x128, .f32⟩
  | .hbm, ⟨1, _⟩ => ⟨S512x128x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S512x1, .f32⟩
  | .hbm, ⟨11, _⟩ => ⟨S512, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S128x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x1, .f32⟩
  | .local _ .vmem, ⟨11, _⟩ => ⟨S1, .f32⟩
  | .local _ .vmem, ⟨12, _⟩ => ⟨S8x1, .f32⟩
  | .local _ .vmem, ⟨13, _⟩ => ⟨S8x1, .f32⟩
  | _, _ => ⟨S512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S8x128x128_S8x128x128_0_0_0 : ∀ a, (![0, 0, 0] : Fin 3 → Nat) a + S8x128x128.size a ≤ S8x128x128.size a
  h_S8x128x128 : 0 < S8x128x128.numel
  bitsLt_bf16_f32 : FTy.bits .bf16 < FTy.bits .f32
  shapeCasts_S8x128x128_S1024x128 : S8x128x128.ShapeCasts S1024x128
  inb_S128x256_S128x256_0_0 : ∀ a, (![0, 0] : Fin 2 → Nat) a + S128x256.size a ≤ S128x256.size a
  h_S128x256 : 0 < S128x256.numel
  shapeCasts_S1024x256_S8x128x256 : S1024x256.ShapeCasts S8x128x256
  inb_S256_S256_0 : ∀ a, (![0] : Fin 1 → Nat) a + S256.size a ≤ S256.size a
  h_S256 : 0 < S256.numel
  shapeCasts_S256_S1x1x256 : S256.ShapeCasts S1x1x256
  broadcasts_S1x1x256_S8x128x256 : S1x1x256.Broadcasts S8x128x256
  shapeCasts_S8x128x256_S1024x256 : S8x128x256.ShapeCasts S1024x256
  inb_S256x256_S256x256_0_0 : ∀ a, (![0, 0] : Fin 2 → Nat) a + S256x256.size a ≤ S256x256.size a
  h_S256x256 : 0 < S256x256.numel
  reduces_S8x128x256_S8x256 : S8x128x256.Reduces [1] S8x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  shapeCasts_S512x1_S512 : S512x1.ShapeCasts S512
  dot_S8x128x128_S8x128x128_S8x128x128_2_1_1_2_0_0_wf : DotDims.WF S8x128x128 S8x128x128 S8x128x128 [2] [1] [1] [2] [0] [0]
  dot_S1024x128_S128x256_S1024x256_1_0_0_1_n_n_wf : DotDims.WF S1024x128 S128x256 S1024x256 [1] [0] [0] [1] [] []
  dot_S8x128x128_S8x128x256_S8x128x256_2_1_1_2_0_0_wf : DotDims.WF S8x128x128 S8x128x256 S8x128x256 [2] [1] [1] [2] [0] [0]
  dot_S1024x256_S256x256_S1024x256_1_0_0_1_n_n_wf : DotDims.WF S1024x256 S256x256 S1024x256 [1] [0] [0] [1] [] []
  dot_S8x256_S256x1_S8x1_1_0_0_1_n_n_wf : DotDims.WF S8x256 S256x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x128.size a ≤ S512x128x128.size a
  hwx0_0 : ∀ i : grid0.Coords, EltTy.bits .f32 = 32 ∨ (Rect.block (s := S512x128x128) S8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S512x128x128.size a
  hwx0_1 : ∀ i : grid0.Coords, EltTy.bits .f32 = 32 ∨ (Rect.block (s := S512x128x128) S8x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1.size a ≤ S512x1.size a
  hwx0_10 : ∀ i : grid0.Coords, EltTy.bits .f32 = 32 ∨ (Rect.block (s := S512x1) S8x1.size (cc0_transform_10 i) (hinb0_10 i)).WholeWords (EltTy.packing .f32)

variable [Facts₀]

def dot_S8x128x128_S8x128x128_S8x128x128_2_1_1_2_0_0 : DotDims S8x128x128 S8x128x128 S8x128x128 where
  lhsContracting := [2]
  rhsContracting := [1]
  lhsNonContracting := [1]
  rhsNonContracting := [2]
  lhsBatch := [0]
  rhsBatch := [0]
  wf := dot_S8x128x128_S8x128x128_S8x128x128_2_1_1_2_0_0_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S8x128x128_S8x128x256_S8x128x256_2_1_1_2_0_0 : DotDims S8x128x128 S8x128x256 S8x128x256 where
  lhsContracting := [2]
  rhsContracting := [1]
  lhsNonContracting := [1]
  rhsNonContracting := [2]
  lhsBatch := [0]
  rhsBatch := [0]
  wf := dot_S8x128x128_S8x128x256_S8x128x256_2_1_1_2_0_0_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S8x256_S256x1_S8x1_1_0_0_1_n_n : DotDims S8x256 S256x1 S8x1 where
  lhsContracting := [1]
  rhsContracting := [0]
  lhsNonContracting := [0]
  rhsNonContracting := [1]
  lhsBatch := []
  rhsBatch := []
  wf := dot_S8x256_S256x1_S8x1_1_0_0_1_n_n_wf

abbrev win0_0 : Pipeline.Window sig grid0 :=
  Pipeline.Window.ofSpec (Memref.whole main_arg0) S8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S8x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S512x128x128 : Shape := ⟨3, ![512, 128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S512x128x256 : Shape := ⟨3, ![512, 128, 256]⟩
abbrev S1x1x256 : Shape := ⟨3, ![1, 1, 256]⟩
abbrev S_ : Shape := ⟨0, ![]⟩
abbrev S512x256 : Shape := ⟨2, ![512, 256]⟩
abbrev S512x1 : Shape := ⟨2, ![512, 1]⟩
abbrev S1x1 : Shape := ⟨2, ![1, 1]⟩
abbrev S512 : Shape := ⟨1, ![512]⟩

abbrev nBuf : Space → Nat
  | .hbm => 44
  | .vmem => 0
  | .smem => 0
  | _ => 0

abbrev bufTy : (tb : Table) → Fin (tcTables nBuf tb) → BufTy
  | .hbm, ⟨0, _⟩ => ⟨S512x128x128, .f32⟩
  | .hbm, ⟨1, _⟩ => ⟨S512x128x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S512x128x128, .f32⟩
  | .hbm, ⟨11, _⟩ => ⟨S512x128x256, .f32⟩
  | .hbm, ⟨12, _⟩ => ⟨S1x1x256, .f32⟩
  | .hbm, ⟨13, _⟩ => ⟨S512x128x256, .f32⟩
  | .hbm, ⟨14, _⟩ => ⟨S512x128x256, .f32⟩
  | .hbm, ⟨15, _⟩ => ⟨S_, .f32⟩
  | .hbm, ⟨16, _⟩ => ⟨S512x128x256, .f32⟩
  | .hbm, ⟨17, _⟩ => ⟨S512x128x256, .f32⟩
  | .hbm, ⟨18, _⟩ => ⟨S512x128x256, .f32⟩
  | .hbm, ⟨19, _⟩ => ⟨S512x128x256, .f32⟩
  | .hbm, ⟨20, _⟩ => ⟨S1x1x256, .f32⟩
  | .hbm, ⟨21, _⟩ => ⟨S512x128x256, .f32⟩
  | .hbm, ⟨22, _⟩ => ⟨S512x128x256, .f32⟩
  | .hbm, ⟨23, _⟩ => ⟨S_, .f32⟩
  | .hbm, ⟨24, _⟩ => ⟨S512x128x256, .f32⟩
  | .hbm, ⟨25, _⟩ => ⟨S512x128x256, .f32⟩
  | .hbm, ⟨26, _⟩ => ⟨S512x128x256, .f32⟩
  | .hbm, ⟨27, _⟩ => ⟨S512x128x256, .f32⟩
  | .hbm, ⟨28, _⟩ => ⟨S1x1x256, .f32⟩
  | .hbm, ⟨29, _⟩ => ⟨S512x128x256, .f32⟩
  | .hbm, ⟨30, _⟩ => ⟨S512x128x256, .f32⟩
  | .hbm, ⟨31, _⟩ => ⟨S_, .f32⟩
  | .hbm, ⟨32, _⟩ => ⟨S512x128x256, .f32⟩
  | .hbm, ⟨33, _⟩ => ⟨S512x128x256, .f32⟩
  | .hbm, ⟨34, _⟩ => ⟨S_, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S512x1, .f32⟩
  | .hbm, ⟨40, _⟩ => ⟨S1x1, .f32⟩
  | .hbm, ⟨41, _⟩ => ⟨S512x1, .f32⟩
  | .hbm, ⟨42, _⟩ => ⟨S512x1, .f32⟩
  | .hbm, ⟨43, _⟩ => ⟨S512, .f32⟩
  | _, _ => ⟨S512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S512x128x256_0_1_2 : S1x1x256.BroadcastsInDim S512x128x256 (![0, 1, 2] : Fin 3 → Fin S512x128x256.rank)
  bcast_S_S512x128x256 : S_.BroadcastsInDim S512x128x256 (![] : Fin 0 → Fin S512x128x256.rank)
  reducesTo_S512x128x256_S512x256_d1 : S512x128x256.ReducesTo [1] S512x256
  h_S_ : 0 < S_.numel
  bcast_S_S512x256 : S_.BroadcastsInDim S512x256 (![] : Fin 0 → Fin S512x256.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S512x128x128_S512x128x128_S512x128x128_2_1_1_2_0_0_wf : DotDims.WF S512x128x128 S512x128x128 S512x128x128 [2] [1] [1] [2] [0] [0]
  dot_S512x128x128_S128x256_S512x128x256_2_0_01_1_n_n_wf : DotDims.WF S512x128x128 S128x256 S512x128x256 [2] [0] [0, 1] [1] [] []
  dot_S512x128x128_S512x128x256_S512x128x256_2_1_1_2_0_0_wf : DotDims.WF S512x128x128 S512x128x256 S512x128x256 [2] [1] [1] [2] [0] [0]
  dot_S512x128x256_S256x256_S512x128x256_2_0_01_1_n_n_wf : DotDims.WF S512x128x256 S256x256 S512x128x256 [2] [0] [0, 1] [1] [] []
  dot_S512x256_S256x1_S512x1_1_0_0_1_n_n_wf : DotDims.WF S512x256 S256x1 S512x1 [1] [0] [0] [1] [] []

variable [Facts₀]

def dot_S512x128x128_S512x128x128_S512x128x128_2_1_1_2_0_0 : DotDims S512x128x128 S512x128x128 S512x128x128 where
  lhsContracting := [2]
  rhsContracting := [1]
  lhsNonContracting := [1]
  rhsNonContracting := [2]
  lhsBatch := [0]
  rhsBatch := [0]
  wf := dot_S512x128x128_S512x128x128_S512x128x128_2_1_1_2_0_0_wf
def dot_S512x128x128_S128x256_S512x128x256_2_0_01_1_n_n : DotDims S512x128x128 S128x256 S512x128x256 where
  lhsContracting := [2]
  rhsContracting := [0]
  lhsNonContracting := [0, 1]
  rhsNonContracting := [1]
  lhsBatch := []
  rhsBatch := []
  wf := dot_S512x128x128_S128x256_S512x128x256_2_0_01_1_n_n_wf
def dot_S512x128x128_S512x128x256_S512x128x256_2_1_1_2_0_0 : DotDims S512x128x128 S512x128x256 S512x128x256 where
  lhsContracting := [2]
  rhsContracting := [1]
  lhsNonContracting := [1]
  rhsNonContracting := [2]
  lhsBatch := [0]
  rhsBatch := [0]
  wf := dot_S512x128x128_S512x128x256_S512x128x256_2_1_1_2_0_0_wf
def dot_S512x128x256_S256x256_S512x128x256_2_0_01_1_n_n : DotDims S512x128x256 S256x256 S512x128x256 where
  lhsContracting := [2]
  rhsContracting := [0]
  lhsNonContracting := [0, 1]
  rhsNonContracting := [1]
  lhsBatch := []
  rhsBatch := []
  wf := dot_S512x128x256_S256x256_S512x128x256_2_0_01_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.Layer.lean ====
/-
  One graph's score on the extended reals: three graph-convolution layers, the mean over the nodes, a linear head.

  For a graph with adjacency rows `A i j` and node features `X j d`, a layer with weights `W` and bias `b` is
      layer A X W b i h = max ((∑ d, (∑ j, A i j * X j d) * W d h) + b h) 0,
  the neighbourhood sum first, then the product with the weights, the bias, the positive part. The score is
      (∑ h, ((∑ i, H i h) / c) * w h) + β
  of the third layer's output `H`, with `c` the node count as the programs spell it. Both programs compute exactly
  this, sum by sum in this grouping, so no law of the extended reals beyond reindexing a sum is needed to join them.
-/
import Idealize.ShloMosaic.PureOps.Ideal.Laws
import Idealize.ShloMosaic.Lib.ValueIdx

noncomputable section

namespace Cert.Gcn

open Idealize.ShloMosaic

/-- The neighbourhood sum: row `i` of `A` against column `k` of `X`. -/
def aggregate {n d : Nat} (A : Fin n → Fin n → EReal) (X : Fin n → Fin d → EReal) : Fin n → Fin d → EReal :=
  fun i k => ∑ j : Fin n, A i j * X j k

/-- The product with a weight matrix. -/
def project {n d h : Nat} (X : Fin n → Fin d → EReal) (W : Fin d → Fin h → EReal) : Fin n → Fin h → EReal :=
  fun i k => ∑ j : Fin d, X i j * W j k

/-- One layer: aggregate, project, add the bias, take the positive part. -/
def layer {n d h : Nat} (A : Fin n → Fin n → EReal) (X : Fin n → Fin d → EReal) (W : Fin d → Fin h → EReal)
    (b : Fin h → EReal) : Fin n → Fin h → EReal :=
  fun i k => max (project (aggregate A X) W i k + b k) 0

/-- The readout: each feature summed over the nodes and divided by `c`, then the product with the head's column and its bias. -/
def readout {n h : Nat} (H : Fin n → Fin h → EReal) (c : EReal) (w : Fin h → EReal) (β : EReal) : EReal :=
  (∑ k : Fin h, Ideal.div (∑ i : Fin n, H i k) c * w k) + β

/-- The whole network on one graph. -/
def score {n d h : Nat} (A : Fin n → Fin n → EReal) (X : Fin n → Fin d → EReal)
    (W₁ : Fin d → Fin h → EReal) (b₁ : Fin h → EReal) (W₂ : Fin h → Fin h → EReal) (b₂ : Fin h → EReal)
    (W₃ : Fin h → Fin h → EReal) (b₃ : Fin h → EReal) (c : EReal) (w : Fin h → EReal) (β : EReal) : EReal :=
  readout (layer A (layer A (layer A X W₁ b₁) W₂ b₂) W₃ b₃) c w β

/-! ## Reading one graph, a matrix, a row and a column out of the programs' arrays -/

/-- Graph `g` of a stack of matrices. -/
def graphOf {G n d : Nat} (x : (⟨3, ![G, n, d]⟩ : Shape).Idx → EReal) (g : Fin G) : Fin n → Fin d → EReal :=
  fun i j => x (ValueIdx.ix3 g i j)

/-- A rank-2 array as a matrix. -/
def matOf {a b : Nat} (x : (⟨2, ![a, b]⟩ : Shape).Idx → EReal) : Fin a → Fin b → EReal :=
  fun i j => x (ValueIdx.ix2 i j)

/-- A rank-1 array as a row. -/
def rowOf {a : Nat} (x : (⟨1, ![a]⟩ : Shape).Idx → EReal) : Fin a → EReal :=
  fun i => x (ValueIdx.ix1 i)

/-- The one column of an `a × 1` array. -/
def colOf {a : Nat} (x : (⟨2, ![a, 1]⟩ : Shape).Idx → EReal) : Fin a → EReal :=
  fun i => x (ValueIdx.ix2 i (0 : Fin 1))

/-- The score of graph `g` of a stack of `G` graphs of 128 nodes with 128 input features and 256 hidden ones, from the
    programs' ten arrays; the node count is the word `0x43000000` (128.0) both programs divide by. -/
def scoreOf {G : Nat} (nf adj : (⟨3, ![G, 128, 128]⟩ : Shape).Idx → EReal)
    (W₁ : (⟨2, ![128, 256]⟩ : Shape).Idx → EReal) (b₁ : (⟨1, ![256]⟩ : Shape).Idx → EReal)
    (W₂ : (⟨2, ![256, 256]⟩ : Shape).Idx → EReal) (b₂ : (⟨1, ![256]⟩ : Shape).Idx → EReal)
    (W₃ : (⟨2, ![256, 256]⟩ : Shape).Idx → EReal) (b₃ : (⟨1, ![256]⟩ : Shape).Idx → EReal)
    (wh : (⟨2, ![256, 1]⟩ : Shape).Idx → EReal) (bh : (⟨1, ![1]⟩ : Shape).Idx → EReal) (g : Fin G) : EReal :=
  score (graphOf adj g) (graphOf nf g) (matOf W₁) (rowOf b₁) (matOf W₂) (rowOf b₂) (matOf W₃) (rowOf b₃)
    (Ideal.ofBits .f32 0x43000000#32) (colOf wh) (bh (ValueIdx.ix1 (0 : Fin 1)))

/-- A product with ONE contracted axis of extent `n`, accumulated into the zero vector, read at an output index `j`: the
    sum over `k : Fin n` of the left operand at `L k` times the right at `R k`, where `L` and `R` are the operand
    indices the dimension numbers give for `j` and the contraction coordinate `k`. -/
theorem matmul_zero_sum {sl sr so : Shape} {φ₁ φ₂ : FTy} (D : DotDims sl sr so) (n : Nat) (hr : D.contr.rank = 1)
    (hs : D.contr.size ⟨0, by omega⟩ = n) (l : FVec Ideal sl φ₁) (r : FVec Ideal sr φ₂) (j : so.Idx)
    (L : Fin n → sl.Idx) (R : Fin n → sr.Idx)
    (hL : ∀ k, D.lhsIdx j ((ValueIdx.contrEquiv1 D n hr hs).symm k) = L k)
    (hR : ∀ k, D.rhsIdx j ((ValueIdx.contrEquiv1 D n hr hs).symm k) = R k) :
    matmul D none l r (constant so .f32 0x00000000#32) j = ∑ k : Fin n, l (L k) * r (R k) := by
  simp only [matmul]
  rw [Ideal.matmul_constant_zero_apply, ← Equiv.sum_comp (ValueIdx.contrEquiv1 D n hr hs).symm]
  exact Finset.sum_congr rfl fun k _ => by rw [hL k, hR k]

end Cert.Gcn

end
-- ==== Proof.BlockOps.lean ====
/-
  The vector operations of the kernel's body, each read at one index on the extended reals.

  The body works on a block of eight graphs. Its five matrix products are read as sums over the contracted coordinate:
  the adjacency block against a feature block, graph by graph (the batched products), and the 1024 stacked node rows
  against a weight matrix (the plain ones). Between them the body stacks the eight graphs' rows — row `i` of graph `p`
  is row `128 p + i` of the stack — and unstacks them again; a bias is a row repeated over all graphs and nodes; the pool
  is the sum over the node axis.
-/
import proofs.«130525_j41824391529182_1_alg».proof.Proof.Gen.KernelIdeal
import proofs.«130525_j41824391529182_1_alg».proof.Proof.Layer
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Gcn

/-! ## The adjacency block against a block of 128-wide features, graph by graph -/

theorem adjFeat_lhs_0 (i : S8x128x128.Idx) (q : dot_S8x128x128_S8x128x128_S8x128x128_2_1_1_2_0_0.contr.Idx) :
    (dot_S8x128x128_S8x128x128_S8x128x128_2_1_1_2_0_0.lhsIdx i q 0).val = (i 0).val := by
  unfold DotDims.lhsIdx
  rw [dif_pos (show (0 : Fin S8x128x128.rank) ∈ dot_S8x128x128_S8x128x128_S8x128x128_2_1_1_2_0_0.lhsBatch by decide)]
  rfl
theorem adjFeat_lhs_1 (i : S8x128x128.Idx) (q : dot_S8x128x128_S8x128x128_S8x128x128_2_1_1_2_0_0.contr.Idx) :
    (dot_S8x128x128_S8x128x128_S8x128x128_2_1_1_2_0_0.lhsIdx i q 1).val = (i 1).val := by
  unfold DotDims.lhsIdx
  rw [dif_neg (show ¬(1 : Fin S8x128x128.rank) ∈ dot_S8x128x128_S8x128x128_S8x128x128_2_1_1_2_0_0.lhsBatch by decide), dif_pos (show (1 : Fin S8x128x128.rank) ∈ dot_S8x128x128_S8x128x128_S8x128x128_2_1_1_2_0_0.lhsNonContracting by decide)]
  rfl
theorem adjFeat_lhs_2 (i : S8x128x128.Idx) (q : dot_S8x128x128_S8x128x128_S8x128x128_2_1_1_2_0_0.contr.Idx) :
    (dot_S8x128x128_S8x128x128_S8x128x128_2_1_1_2_0_0.lhsIdx i q 2).val = (q ⟨0, by decide⟩).val :=
  dot_S8x128x128_S8x128x128_S8x128x128_2_1_1_2_0_0.lhsIdx_val_of_single rfl i q
theorem adjFeat_rhs_0 (i : S8x128x128.Idx) (q : dot_S8x128x128_S8x128x128_S8x128x128_2_1_1_2_0_0.contr.Idx) :
    (dot_S8x128x128_S8x128x128_S8x128x128_2_1_1_2_0_0.rhsIdx i q 0).val = (i 0).val := by
  unfold DotDims.rhsIdx
  rw [dif_pos (show (0 : Fin S8x128x128.rank) ∈ dot_S8x128x128_S8x128x128_S8x128x128_2_1_1_2_0_0.rhsBatch by decide)]
  rfl
theorem adjFeat_rhs_1 (i : S8x128x128.Idx) (q : dot_S8x128x128_S8x128x128_S8x128x128_2_1_1_2_0_0.contr.Idx) :
    (dot_S8x128x128_S8x128x128_S8x128x128_2_1_1_2_0_0.rhsIdx i q 1).val = (q ⟨0, by decide⟩).val :=
  dot_S8x128x128_S8x128x128_S8x128x128_2_1_1_2_0_0.rhsIdx_val_of_single rfl i q
theorem adjFeat_rhs_2 (i : S8x128x128.Idx) (q : dot_S8x128x128_S8x128x128_S8x128x128_2_1_1_2_0_0.contr.Idx) :
    (dot_S8x128x128_S8x128x128_S8x128x128_2_1_1_2_0_0.rhsIdx i q 2).val = (i 2).val := by
  unfold DotDims.rhsIdx
  rw [dif_neg (show ¬(2 : Fin S8x128x128.rank) ∈ dot_S8x128x128_S8x128x128_S8x128x128_2_1_1_2_0_0.rhsBatch by decide), dif_pos (show (2 : Fin S8x128x128.rank) ∈ dot_S8x128x128_S8x128x128_S8x128x128_2_1_1_2_0_0.rhsNonContracting by decide)]
  rfl

/-- Entry `(p, i, d)` of the batched product: row `i` of graph `p`'s adjacency against column `d` of its features. -/
theorem adjFeat_apply {φ₁ φ₂ : FTy} (A : FVec Ideal S8x128x128 φ₁) (X : FVec Ideal S8x128x128 φ₂) (p : Fin 8) (i d : Fin 128) :
    matmul dot_S8x128x128_S8x128x128_S8x128x128_2_1_1_2_0_0 none A X (constant S8x128x128 .f32 0x00000000#32) (ix3 p i d)
      = ∑ j : Fin 128, A (ix3 p i j) * X (ix3 p j d) :=
  matmul_zero_sum dot_S8x128x128_S8x128x128_S8x128x128_2_1_1_2_0_0 128 rfl rfl A X (ix3 p i d) (fun j => ix3 p i j) (fun j => ix3 p j d)
    (fun k => funext fun a => Fin.ext (by
      have hk := contrEquiv1_symm_val dot_S8x128x128_S8x128x128_S8x128x128_2_1_1_2_0_0 128 rfl rfl k
      match a with
      | ⟨0, _⟩ => exact adjFeat_lhs_0 _ _
      | ⟨1, _⟩ => exact adjFeat_lhs_1 _ _
      | ⟨2, _⟩ => exact (adjFeat_lhs_2 _ _).trans hk))
    (fun k => funext fun a => Fin.ext (by
      have hk := contrEquiv1_symm_val dot_S8x128x128_S8x128x128_S8x128x128_2_1_1_2_0_0 128 rfl rfl k
      match a with
      | ⟨0, _⟩ => exact adjFeat_rhs_0 _ _
      | ⟨1, _⟩ => exact (adjFeat_rhs_1 _ _).trans hk
      | ⟨2, _⟩ => exact adjFeat_rhs_2 _ _))

/-! ## The adjacency block against a block of 256-wide hidden features, graph by graph -/

theorem adjHidden_lhs_0 (i : S8x128x256.Idx) (q : dot_S8x128x128_S8x128x256_S8x128x256_2_1_1_2_0_0.contr.Idx) :
    (dot_S8x128x128_S8x128x256_S8x128x256_2_1_1_2_0_0.lhsIdx i q 0).val = (i 0).val := by
  unfold DotDims.lhsIdx
  rw [dif_pos (show (0 : Fin S8x128x128.rank) ∈ dot_S8x128x128_S8x128x256_S8x128x256_2_1_1_2_0_0.lhsBatch by decide)]
  rfl
theorem adjHidden_lhs_1 (i : S8x128x256.Idx) (q : dot_S8x128x128_S8x128x256_S8x128x256_2_1_1_2_0_0.contr.Idx) :
    (dot_S8x128x128_S8x128x256_S8x128x256_2_1_1_2_0_0.lhsIdx i q 1).val = (i 1).val := by
  unfold DotDims.lhsIdx
  rw [dif_neg (show ¬(1 : Fin S8x128x128.rank) ∈ dot_S8x128x128_S8x128x256_S8x128x256_2_1_1_2_0_0.lhsBatch by decide), dif_pos (show (1 : Fin S8x128x128.rank) ∈ dot_S8x128x128_S8x128x256_S8x128x256_2_1_1_2_0_0.lhsNonContracting by decide)]
  rfl
theorem adjHidden_lhs_2 (i : S8x128x256.Idx) (q : dot_S8x128x128_S8x128x256_S8x128x256_2_1_1_2_0_0.contr.Idx) :
    (dot_S8x128x128_S8x128x256_S8x128x256_2_1_1_2_0_0.lhsIdx i q 2).val = (q ⟨0, by decide⟩).val :=
  dot_S8x128x128_S8x128x256_S8x128x256_2_1_1_2_0_0.lhsIdx_val_of_single rfl i q
theorem adjHidden_rhs_0 (i : S8x128x256.Idx) (q : dot_S8x128x128_S8x128x256_S8x128x256_2_1_1_2_0_0.contr.Idx) :
    (dot_S8x128x128_S8x128x256_S8x128x256_2_1_1_2_0_0.rhsIdx i q 0).val = (i 0).val := by
  unfold DotDims.rhsIdx
  rw [dif_pos (show (0 : Fin S8x128x256.rank) ∈ dot_S8x128x128_S8x128x256_S8x128x256_2_1_1_2_0_0.rhsBatch by decide)]
  rfl
theorem adjHidden_rhs_1 (i : S8x128x256.Idx) (q : dot_S8x128x128_S8x128x256_S8x128x256_2_1_1_2_0_0.contr.Idx) :
    (dot_S8x128x128_S8x128x256_S8x128x256_2_1_1_2_0_0.rhsIdx i q 1).val = (q ⟨0, by decide⟩).val :=
  dot_S8x128x128_S8x128x256_S8x128x256_2_1_1_2_0_0.rhsIdx_val_of_single rfl i q
theorem adjHidden_rhs_2 (i : S8x128x256.Idx) (q : dot_S8x128x128_S8x128x256_S8x128x256_2_1_1_2_0_0.contr.Idx) :
    (dot_S8x128x128_S8x128x256_S8x128x256_2_1_1_2_0_0.rhsIdx i q 2).val = (i 2).val := by
  unfold DotDims.rhsIdx
  rw [dif_neg (show ¬(2 : Fin S8x128x256.rank) ∈ dot_S8x128x128_S8x128x256_S8x128x256_2_1_1_2_0_0.rhsBatch by decide), dif_pos (show (2 : Fin S8x128x256.rank) ∈ dot_S8x128x128_S8x128x256_S8x128x256_2_1_1_2_0_0.rhsNonContracting by decide)]
  rfl

/-- Entry `(p, i, c)` of the batched product: row `i` of graph `p`'s adjacency against column `c` of its hidden features. -/
theorem adjHidden_apply {φ₁ φ₂ : FTy} (A : FVec Ideal S8x128x128 φ₁) (H : FVec Ideal S8x128x256 φ₂) (p : Fin 8) (i : Fin 128) (c : Fin 256) :
    matmul dot_S8x128x128_S8x128x256_S8x128x256_2_1_1_2_0_0 none A H (constant S8x128x256 .f32 0x00000000#32) (ix3 p i c)
      = ∑ j : Fin 128, A (ix3 p i j) * H (ix3 p j c) :=
  matmul_zero_sum dot_S8x128x128_S8x128x256_S8x128x256_2_1_1_2_0_0 128 rfl rfl A H (ix3 p i c) (fun j => ix3 p i j) (fun j => ix3 p j c)
    (fun k => funext fun a => Fin.ext (by
      have hk := contrEquiv1_symm_val dot_S8x128x128_S8x128x256_S8x128x256_2_1_1_2_0_0 128 rfl rfl k
      match a with
      | ⟨0, _⟩ => exact adjHidden_lhs_0 _ _
      | ⟨1, _⟩ => exact adjHidden_lhs_1 _ _
      | ⟨2, _⟩ => exact (adjHidden_lhs_2 _ _).trans hk))
    (fun k => funext fun a => Fin.ext (by
      have hk := contrEquiv1_symm_val dot_S8x128x128_S8x128x256_S8x128x256_2_1_1_2_0_0 128 rfl rfl k
      match a with
      | ⟨0, _⟩ => exact adjHidden_rhs_0 _ _
      | ⟨1, _⟩ => exact (adjHidden_rhs_1 _ _).trans hk
      | ⟨2, _⟩ => exact adjHidden_rhs_2 _ _))

/-! ## The stacked rows against the first layer's weights -/

theorem rowsIn_lhs_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem rowsIn_lhs_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rowsIn_rhs_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rowsIn_rhs_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- Entry `(r, c)` of the stacked rows times the 128 × 256 weights. -/
theorem rowsIn_apply {φ₁ φ₂ : FTy} (X : FVec Ideal S1024x128 φ₁) (W : FVec Ideal S128x256 φ₂) (r : Fin 1024) (c : Fin 256) :
    matmul dot_S1024x128_S128x256_S1024x256_1_0_0_1_n_n none X W (constant S1024x256 .f32 0x00000000#32) (ix2 r c)
      = ∑ k : Fin 128, X (ix2 r k) * W (ix2 k c) :=
  matmul_zero_sum dot_S1024x128_S128x256_S1024x256_1_0_0_1_n_n 128 rfl rfl X W (ix2 r c) (fun k => ix2 r k) (fun k => ix2 k c)
    (fun k => funext fun a => Fin.ext (by
      have hk := contrEquiv1_symm_val dot_S1024x128_S128x256_S1024x256_1_0_0_1_n_n 128 rfl rfl k
      match a with
      | ⟨0, _⟩ => exact rowsIn_lhs_0 _ _
      | ⟨1, _⟩ => exact (rowsIn_lhs_1 _ _).trans hk))
    (fun k => funext fun a => Fin.ext (by
      have hk := contrEquiv1_symm_val dot_S1024x128_S128x256_S1024x256_1_0_0_1_n_n 128 rfl rfl k
      match a with
      | ⟨0, _⟩ => exact (rowsIn_rhs_0 _ _).trans hk
      | ⟨1, _⟩ => exact rowsIn_rhs_1 _ _))

/-! ## The stacked rows against a 256 × 256 weight matrix -/

theorem rowsHidden_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem rowsHidden_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rowsHidden_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rowsHidden_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry `(r, c)` of the stacked rows times 256 × 256 weights. -/
theorem rowsHidden_apply {φ₁ φ₂ : FTy} (X : FVec Ideal S1024x256 φ₁) (W : FVec Ideal S256x256 φ₂) (r : Fin 1024) (c : Fin 256) :
    matmul dot_S1024x256_S256x256_S1024x256_1_0_0_1_n_n none X W (constant S1024x256 .f32 0x00000000#32) (ix2 r c)
      = ∑ k : Fin 256, X (ix2 r k) * W (ix2 k c) :=
  matmul_zero_sum dot_S1024x256_S256x256_S1024x256_1_0_0_1_n_n 256 rfl rfl X W (ix2 r c) (fun k => ix2 r k) (fun k => ix2 k c)
    (fun k => funext fun a => Fin.ext (by
      have hk := contrEquiv1_symm_val dot_S1024x256_S256x256_S1024x256_1_0_0_1_n_n 256 rfl rfl k
      match a with
      | ⟨0, _⟩ => exact rowsHidden_lhs_0 _ _
      | ⟨1, _⟩ => exact (rowsHidden_lhs_1 _ _).trans hk))
    (fun k => funext fun a => Fin.ext (by
      have hk := contrEquiv1_symm_val dot_S1024x256_S256x256_S1024x256_1_0_0_1_n_n 256 rfl rfl k
      match a with
      | ⟨0, _⟩ => exact (rowsHidden_rhs_0 _ _).trans hk
      | ⟨1, _⟩ => exact rowsHidden_rhs_1 _ _))

/-! ## The pooled features against the head's column -/

theorem head_lhs_0 (i : S8x1.Idx) (q : dot_S8x256_S256x1_S8x1_1_0_0_1_n_n.contr.Idx) :
    (dot_S8x256_S256x1_S8x1_1_0_0_1_n_n.lhsIdx i q 0).val = (i 0).val := by
  unfold DotDims.lhsIdx
  rw [dif_neg (show ¬(0 : Fin S8x256.rank) ∈ dot_S8x256_S256x1_S8x1_1_0_0_1_n_n.lhsBatch by decide), dif_pos (show (0 : Fin S8x256.rank) ∈ dot_S8x256_S256x1_S8x1_1_0_0_1_n_n.lhsNonContracting by decide)]
  rfl
theorem head_lhs_1 (i : S8x1.Idx) (q : dot_S8x256_S256x1_S8x1_1_0_0_1_n_n.contr.Idx) :
    (dot_S8x256_S256x1_S8x1_1_0_0_1_n_n.lhsIdx i q 1).val = (q ⟨0, by decide⟩).val :=
  dot_S8x256_S256x1_S8x1_1_0_0_1_n_n.lhsIdx_val_of_single rfl i q
theorem head_rhs_0 (i : S8x1.Idx) (q : dot_S8x256_S256x1_S8x1_1_0_0_1_n_n.contr.Idx) :
    (dot_S8x256_S256x1_S8x1_1_0_0_1_n_n.rhsIdx i q 0).val = (q ⟨0, by decide⟩).val :=
  dot_S8x256_S256x1_S8x1_1_0_0_1_n_n.rhsIdx_val_of_single rfl i q
theorem head_rhs_1 (i : S8x1.Idx) (q : dot_S8x256_S256x1_S8x1_1_0_0_1_n_n.contr.Idx) :
    (dot_S8x256_S256x1_S8x1_1_0_0_1_n_n.rhsIdx i q 1).val = (i 1).val := by
  unfold DotDims.rhsIdx
  rw [dif_neg (show ¬(1 : Fin S256x1.rank) ∈ dot_S8x256_S256x1_S8x1_1_0_0_1_n_n.rhsBatch by decide), dif_pos (show (1 : Fin S256x1.rank) ∈ dot_S8x256_S256x1_S8x1_1_0_0_1_n_n.rhsNonContracting by decide)]
  rfl

/-- Entry `(p, u)` of the pooled features times the head's one column. -/
theorem head_apply {φ₁ φ₂ : FTy} (P : FVec Ideal S8x256 φ₁) (w : FVec Ideal S256x1 φ₂) (p : Fin 8) (u : Fin 1) :
    matmul dot_S8x256_S256x1_S8x1_1_0_0_1_n_n none P w (constant S8x1 .f32 0x00000000#32) (ix2 p u)
      = ∑ k : Fin 256, P (ix2 p k) * w (ix2 k u) :=
  matmul_zero_sum dot_S8x256_S256x1_S8x1_1_0_0_1_n_n 256 rfl rfl P w (ix2 p u) (fun k => ix2 p k) (fun k => ix2 k u)
    (fun k => funext fun a => Fin.ext (by
      have hk := contrEquiv1_symm_val dot_S8x256_S256x1_S8x1_1_0_0_1_n_n 256 rfl rfl k
      match a with
      | ⟨0, _⟩ => exact head_lhs_0 _ _
      | ⟨1, _⟩ => exact (head_lhs_1 _ _).trans hk))
    (fun k => funext fun a => Fin.ext (by
      have hk := contrEquiv1_symm_val dot_S8x256_S256x1_S8x1_1_0_0_1_n_n 256 rfl rfl k
      match a with
      | ⟨0, _⟩ => exact (head_rhs_0 _ _).trans hk
      | ⟨1, _⟩ => exact head_rhs_1 _ _))

/-! ## Stacking the eight graphs' rows, and unstacking them -/

/-- Row `i` of graph `p` among the 1024 stacked rows. -/
def stackedRow (p : Fin 8) (i : Fin 128) : Fin 1024 := ⟨p.val * 128 + i.val, by omega⟩

/-- The stack read at a stacked row: the block at the graph and its row. -/
theorem stack_apply {α : Type} {D : Nat} (v : (⟨3, ![8, 128, D]⟩ : Shape).Idx → α)
    (h : (⟨3, ![8, 128, D]⟩ : Shape).ShapeCasts ⟨2, ![1024, D]⟩) (p : Fin 8) (i : Fin 128) (d : Fin D) :
    shapeCast ⟨2, ![1024, D]⟩ v h (ix2 (stackedRow p i) d) = v (ix3 p i d) :=
  shapeCast_apply v h _ _ (by
    rw [Shape.rowMajor_val_three, Shape.rowMajor_val_two]
    show (p.val * 128 + i.val) * D + d.val = (p.val * 128 + i.val) * D + d.val
    rfl)

/-- The unstacked block read at a graph and a row: the stack at the stacked row. -/
theorem unstack_apply {α : Type} {D : Nat} (v : (⟨2, ![1024, D]⟩ : Shape).Idx → α)
    (h : (⟨2, ![1024, D]⟩ : Shape).ShapeCasts ⟨3, ![8, 128, D]⟩) (p : Fin 8) (i : Fin 128) (d : Fin D) :
    shapeCast ⟨3, ![8, 128, D]⟩ v h (ix3 p i d) = v (ix2 (stackedRow p i) d) :=
  shapeCast_apply v h _ _ (by
    rw [Shape.rowMajor_val_three, Shape.rowMajor_val_two]
    show (p.val * 128 + i.val) * D + d.val = (p.val * 128 + i.val) * D + d.val
    rfl)

/-! ## The bias rows -/

/-- A layer's bias, a row of 256, repeated over the graphs and the nodes. -/
theorem biasRow_apply {α : Type} (b : S256.Idx → α) (h₁ : S256.ShapeCasts S1x1x256) (h₂ : S1x1x256.Broadcasts S8x128x256)
    (p : Fin 8) (i : Fin 128) (c : Fin 256) :
    broadcastTo S8x128x256 (shapeCast S1x1x256 b h₁) h₂ (ix3 p i c) = b (ix1 c) :=
  (broadcastTo_apply _ h₂ (ix3 p i c) (ix3 (0 : Fin 1) (0 : Fin 1) c) (fun a => by
    match a with
    | ⟨0, _⟩ => rfl
    | ⟨1, _⟩ => rfl
    | ⟨2, _⟩ => rfl)).trans
  (shapeCast_apply b h₁ _ _ (by
    rw [Shape.rowMajor_val_one, Shape.rowMajor_val_three]
    show c.val = (0 * 1 + 0) * 256 + c.val
    omega))

/-- The head's bias, one number, repeated over the graphs. -/
theorem biasOne_apply {α : Type} (b : S1.Idx → α) (h₁ : S1.ShapeCasts S1x1) (h₂ : S1x1.Broadcasts S8x1) (p : Fin 8) (u : Fin 1) :
    broadcastTo S8x1 (shapeCast S1x1 b h₁) h₂ (ix2 p u) = b (ix1 (0 : Fin 1)) :=
  (broadcastTo_apply _ h₂ (ix2 p u) (ix2 (0 : Fin 1) (0 : Fin 1)) (fun a => by
    match a with
    | ⟨0, _⟩ => rfl
    | ⟨1, _⟩ => rfl)).trans
  (shapeCast_apply b h₁ _ _ (by
    rw [Shape.rowMajor_val_one, Shape.rowMajor_val_two]
    show 0 = 0 * 1 + 0
    rfl))

/-! ## The sum over the nodes, and the zero the positive part compares with -/

/-- Entry `(p, c)` of the sum over the node axis (the accumulator word is the sum's neutral element). -/
theorem nodeSum_apply (v : FVec Ideal S8x128x256 .f32) (acc : BitVec FTy.f32.bits) (h : S8x128x256.Reduces [1] S8x256)
    (hφ : FKind.Formats .f32) (hacc : acc = FKind.add.neutral .f32 hφ) (p : Fin 8) (c : Fin 256) :
    multiReduction .add [1] S8x256 v acc h hφ hacc (ix2 p c) = ∑ i : Fin 128, v (ix3 p i c) :=
  (Ideal.multiReduction_add_single v acc h hφ hacc (ix2 p c)).trans
    (Finset.sum_congr rfl fun i _ => congrArg v (funext fun a => Fin.ext (by
      match a with
      | ⟨0, _⟩ => rfl
      | ⟨1, _⟩ => rfl
      | ⟨2, _⟩ => rfl)))

/-- The word `0x00000000` is the number zero. -/
theorem zeroWord : Scalar.ofBits (F := Ideal) .f32 0x00000000#32 = (0 : EReal) := Ideal.ofBits_zero_f32

end Cert.KernelIdeal.Block

end
-- ==== Proof.BlockValue.lean ====
/-
  What the body stores for a block of eight graphs: at `(p, 0)` the score of the block's graph `p`.

  The body's arithmetic is three pure terms of the values it loads. The first builds, from the adjacency block, the
  feature block and the first two layers' weights and biases, the third layer's neighbourhood sum as 1024 stacked rows;
  the second is the third layer's weights; the third finishes the layer (weights, bias, positive part), sums over the
  nodes, divides by 128, and applies the head. Changes of float format are the identity on the extended reals.
-/
import proofs.«130525_j41824391529182_1_alg».proof.Proof.Gen.KernelIdeal.Skeleton
import proofs.«130525_j41824391529182_1_alg».proof.Proof.BlockOps

noncomputable section

namespace Cert.KernelIdeal.Block

open Cert.KernelIdeal Cert.KernelIdeal.Gen Idealize.ShloMosaic Idealize.ShloMosaic.ValueIdx Cert.Gcn

/-- The stacked rows the first term hands on: row `i` of graph `p`, column `c`, is the neighbourhood sum of the second
    layer's output. -/
theorem aggregated_apply (A X : Vec Ideal S8x128x128 .f32) (W₁ : Vec Ideal S128x256 .f32) (b₁ : Vec Ideal S256 .f32)
    (W₂ : Vec Ideal S256x256 .f32) (b₂ : Vec Ideal S256 .f32) (p : Fin 8) (i : Fin 128) (c : Fin 256) :
    k0_pay2 (F := Ideal) A X W₁ b₁ W₂ b₂ (ix2 (stackedRow p i) c)
      = aggregate (graphOf A p) (layer (graphOf A p) (layer (graphOf A p) (graphOf X p) (matOf W₁) (rowOf b₁)) (matOf W₂) (rowOf b₂)) i c := by
  unfold k0_pay2
  simp only [stack_apply, unstack_apply, truncf_apply, adjFeat_apply, adjHidden_apply, rowsIn_apply, rowsHidden_apply,
    maximumf_apply, addf_apply, biasRow_apply, broadcast_apply, zeroWord]
  rfl

/-- THE BLOCK'S STORE at `(p, u)`: the score of graph `p` of the block. The head's sum over the 256 pooled features is
    taken term by term; in each, the pooled feature is the node sum of the third layer's output divided by 128. -/
theorem stored_apply (X A : Vec Ideal S8x128x128 .f32) (W₁ : Vec Ideal S128x256 .f32) (b₁ : Vec Ideal S256 .f32)
    (W₂ : Vec Ideal S256x256 .f32) (b₂ : Vec Ideal S256 .f32) (W₃ : Vec Ideal S256x256 .f32) (b₃ : Vec Ideal S256 .f32)
    (wh : Vec Ideal S256x1 .f32) (bh : Vec Ideal S1 .f32) (p : Fin 8) (u : Fin 1) :
    k0_pay1 (F := Ideal) (k0_pay2 A X W₁ b₁ W₂ b₂) (k0_pay3 W₃) (constant S1024x256 .f32 0x00000000#32) b₃ wh bh (ix2 p u)
      = scoreOf X A W₁ b₁ W₂ b₂ W₃ b₃ wh bh p := by
  obtain rfl : u = 0 := Subsingleton.elim _ _
  unfold k0_pay1 k0_pay3
  simp only [addf_apply, head_apply, biasOne_apply, truncf_apply, divf_apply, broadcast_apply]
  refine congrArg (fun s : EReal => s + bh (ix1 (0 : Fin 1))) (Finset.sum_congr rfl fun k _ => ?_)
  refine congrArg (fun s : EReal => Ideal.div s (Ideal.ofBits .f32 0x43000000#32) * wh (ix2 k (0 : Fin 1)))
    ((nodeSum_apply _ _ _ _ _ p k).trans (Finset.sum_congr rfl fun i _ => ?_))
  simp only [maximumf_apply, addf_apply, unstack_apply, rowsHidden_apply, biasRow_apply, broadcast_apply, zeroWord,
    truncf_apply, aggregated_apply]
  rfl

/-- The same for the whole block: if `S` holds at `(p, u)` the score of the block's graph `p`, the body stores `S`. -/
theorem stored_eq (X A : Vec Ideal S8x128x128 .f32) (W₁ : Vec Ideal S128x256 .f32) (b₁ : Vec Ideal S256 .f32)
    (W₂ : Vec Ideal S256x256 .f32) (b₂ : Vec Ideal S256 .f32) (W₃ : Vec Ideal S256x256 .f32) (b₃ : Vec Ideal S256 .f32)
    (wh : Vec Ideal S256x1 .f32) (bh : Vec Ideal S1 .f32) (S : S8x1.Idx → EReal)
    (hS : ∀ (p : Fin 8) (u : Fin 1), S (ix2 p u) = scoreOf X A W₁ b₁ W₂ b₂ W₃ b₃ wh bh p) :
    k0_pay1 (F := Ideal) (k0_pay2 A X W₁ b₁ W₂ b₂) (k0_pay3 W₃) (constant S1024x256 .f32 0x00000000#32) b₃ wh bh = S := by
  funext y
  obtain ⟨p, u, rfl⟩ : ∃ (p : Fin 8) (u : Fin 1), y = ix2 p u := ⟨y 0, y 1, eq_ix2 y⟩
  rw [stored_apply, hS]

end Cert.KernelIdeal.Block

end
-- ==== Proof.KernelRun.lean ====
/-
  From the blocks to the whole result, and through the reshape that follows the kernel region.

  The grid has 64 points; point `t` stages graphs `8 t … 8 t + 7` of the features and of the adjacency, the eight weight
  and bias arrays whole, and writes back rows `8 t … 8 t + 7` of the 512 × 1 result. So block `t` of the result holds, at
  `(p, 0)`, the score of graph `8 t + p` of the arguments; the 64 blocks tile the result, which therefore holds every
  graph's score; and the host's reshape of the 512 × 1 array to 512 numbers keeps each score at its graph.
-/
import proofs.«130525_j41824391529182_1_alg».proof.Proof.Gen.KernelIdeal.Frame
import proofs.«130525_j41824391529182_1_alg».proof.Proof.BlockValue
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Block Idealize.ShloMosaic.ValueIdx Cert.Gcn

variable (m : (ℓ : Loc nD τ sig) → Buf (Elt Ideal) ℓ) (ρ : Dev nD → PrngReg)

/-! ## The arguments, and the two forms of the result -/

/-- The node features on core `c`, as launched. -/
abbrev arg0 (c : Dev nD) : S512x128x128.Idx → EReal := m ((c : Thread nD τ).loc main_arg0)
/-- The adjacency. -/
abbrev arg1 (c : Dev nD) : S512x128x128.Idx → EReal := m ((c : Thread nD τ).loc main_arg1)
/-- The first layer's weights. -/
abbrev arg2 (c : Dev nD) : S128x256.Idx → EReal := m ((c : Thread nD τ).loc main_arg2)
/-- The first layer's bias. -/
abbrev arg3 (c : Dev nD) : S256.Idx → EReal := m ((c : Thread nD τ).loc main_arg3)
/-- The second layer's weights. -/
abbrev arg4 (c : Dev nD) : S256x256.Idx → EReal := m ((c : Thread nD τ).loc main_arg4)
/-- The second layer's bias. -/
abbrev arg5 (c : Dev nD) : S256.Idx → EReal := m ((c : Thread nD τ).loc main_arg5)
/-- The third layer's weights. -/
abbrev arg6 (c : Dev nD) : S256x256.Idx → EReal := m ((c : Thread nD τ).loc main_arg6)
/-- The third layer's bias. -/
abbrev arg7 (c : Dev nD) : S256.Idx → EReal := m ((c : Thread nD τ).loc main_arg7)
/-- The head's column. -/
abbrev arg8 (c : Dev nD) : S256x1.Idx → EReal := m ((c : Thread nD τ).loc main_arg8)
/-- The head's bias. -/
abbrev arg9 (c : Dev nD) : S1.Idx → EReal := m ((c : Thread nD τ).loc main_arg9)

/-- Graph `g`'s score from the arguments on core `c`. -/
def scoreAt (c : Dev nD) (g : Fin 512) : EReal :=
  scoreOf (arg0 m c) (arg1 m c) (arg2 m c) (arg3 m c) (arg4 m c) (arg5 m c) (arg6 m c) (arg7 m c) (arg8 m c) (arg9 m c) g

/-- The scores as the 512 × 1 array the kernel region writes. -/
def column (c : Dev nD) : S512x1.Idx → EReal := fun i => scoreAt m c (i 0)

/-- The scores as the 512 numbers the program returns. -/
def scores (c : Dev nD) : S512.Idx → EReal := fun i => scoreAt m c (i 0)

/-! ## Which rows each point's blocks hold -/

/-- Graph `p` of point `t`'s block is graph `8 t + p` of the stack. -/
def graphAt (t : Fin cfg0.N) (p : Fin 8) : Fin 512 :=
  ⟨8 * t.val + p.val, by have h : t.val < 64 := lt_of_lt_of_eq t.isLt N_0; omega⟩

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 1) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 1) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 1) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 1) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)

/-- The feature block at point `t`: graph `p` of it is graph `8 t + p` of the features. -/
theorem features_block (c : Dev nD) (t : Fin cfg0.N) (p : Fin 8) (i j : Fin 128) :
    (iblk m c 0 t : Vec Ideal S8x128x128 .f32) (ix3 p i j) = arg0 m c (ix3 (graphAt t p) i j) := by
  obtain ⟨e0, e1, e2⟩ := index0 t
  unfold iblk
  rw [View.read_apply]
  show V m c main_arg0 _ = m (c.tc.loc main_arg0) _
  unfold V
  congr 1
  funext a
  apply Fin.ext
  match a with
  | ⟨0, _⟩ => show win0_0.index t (0 : Fin 3) * 8 + 1 * p.val = 8 * t.val + p.val; omega
  | ⟨1, _⟩ => show win0_0.index t (1 : Fin 3) * 128 + 1 * i.val = i.val; omega
  | ⟨2, _⟩ => show win0_0.index t (2 : Fin 3) * 128 + 1 * j.val = j.val; omega

/-- The adjacency block at point `t`, likewise. -/
theorem adjacency_block (c : Dev nD) (t : Fin cfg0.N) (p : Fin 8) (i j : Fin 128) :
    (iblk m c 1 t : Vec Ideal S8x128x128 .f32) (ix3 p i j) = arg1 m c (ix3 (graphAt t p) i j) := by
  obtain ⟨e0, e1, e2⟩ := index1 t
  unfold iblk
  rw [View.read_apply]
  show V m c main_arg1 _ = m (c.tc.loc main_arg1) _
  unfold V
  congr 1
  funext a
  apply Fin.ext
  match a with
  | ⟨0, _⟩ => show win0_1.index t (0 : Fin 3) * 8 + 1 * p.val = 8 * t.val + p.val; omega
  | ⟨1, _⟩ => show win0_1.index t (1 : Fin 3) * 128 + 1 * i.val = i.val; omega
  | ⟨2, _⟩ => show win0_1.index t (2 : Fin 3) * 128 + 1 * j.val = j.val; omega

/-- The weight and bias windows stage their arrays whole at every point. -/
theorem block2 (c : Dev nD) (t : Fin cfg0.N) : (iblk m c 2 t : Vec Ideal S128x256 .f32) = arg2 m c := by
  funext x
  obtain ⟨e0, e1⟩ := index2 t
  unfold iblk
  rw [View.read_apply]
  show V m c main_arg2 _ = m (c.tc.loc main_arg2) _
  unfold V
  congr 1
  funext a
  apply Fin.ext
  match a with
  | ⟨0, _⟩ => show win0_2.index t (0 : Fin 2) * 128 + 1 * (x 0).val = (x 0).val; omega
  | ⟨1, _⟩ => show win0_2.index t (1 : Fin 2) * 256 + 1 * (x 1).val = (x 1).val; omega
theorem block3 (c : Dev nD) (t : Fin cfg0.N) : (iblk m c 3 t : Vec Ideal S256 .f32) = arg3 m c := by
  funext x
  have e0 := index3 t
  unfold iblk
  rw [View.read_apply]
  show V m c main_arg3 _ = m (c.tc.loc main_arg3) _
  unfold V
  congr 1
  funext a
  apply Fin.ext
  match a with
  | ⟨0, _⟩ => show win0_3.index t (0 : Fin 1) * 256 + 1 * (x 0).val = (x 0).val; omega
theorem block4 (c : Dev nD) (t : Fin cfg0.N) : (iblk m c 4 t : Vec Ideal S256x256 .f32) = arg4 m c := by
  funext x
  obtain ⟨e0, e1⟩ := index4 t
  unfold iblk
  rw [View.read_apply]
  show V m c main_arg4 _ = m (c.tc.loc main_arg4) _
  unfold V
  congr 1
  funext a
  apply Fin.ext
  match a with
  | ⟨0, _⟩ => show win0_4.index t (0 : Fin 2) * 256 + 1 * (x 0).val = (x 0).val; omega
  | ⟨1, _⟩ => show win0_4.index t (1 : Fin 2) * 256 + 1 * (x 1).val = (x 1).val; omega
theorem block5 (c : Dev nD) (t : Fin cfg0.N) : (iblk m c 5 t : Vec Ideal S256 .f32) = arg5 m c := by
  funext x
  have e0 := index5 t
  unfold iblk
  rw [View.read_apply]
  show V m c main_arg5 _ = m (c.tc.loc main_arg5) _
  unfold V
  congr 1
  funext a
  apply Fin.ext
  match a with
  | ⟨0, _⟩ => show win0_5.index t (0 : Fin 1) * 256 + 1 * (x 0).val = (x 0).val; omega
theorem block6 (c : Dev nD) (t : Fin cfg0.N) : (iblk m c 6 t : Vec Ideal S256x256 .f32) = arg6 m c := by
  funext x
  obtain ⟨e0, e1⟩ := index6 t
  unfold iblk
  rw [View.read_apply]
  show V m c main_arg6 _ = m (c.tc.loc main_arg6) _
  unfold V
  congr 1
  funext a
  apply Fin.ext
  match a with
  | ⟨0, _⟩ => show win0_6.index t (0 : Fin 2) * 256 + 1 * (x 0).val = (x 0).val; omega
  | ⟨1, _⟩ => show win0_6.index t (1 : Fin 2) * 256 + 1 * (x 1).val = (x 1).val; omega
theorem block7 (c : Dev nD) (t : Fin cfg0.N) : (iblk m c 7 t : Vec Ideal S256 .f32) = arg7 m c := by
  funext x
  have e0 := index7 t
  unfold iblk
  rw [View.read_apply]
  show V m c main_arg7 _ = m (c.tc.loc main_arg7) _
  unfold V
  congr 1
  funext a
  apply Fin.ext
  match a with
  | ⟨0, _⟩ => show win0_7.index t (0 : Fin 1) * 256 + 1 * (x 0).val = (x 0).val; omega
theorem block8 (c : Dev nD) (t : Fin cfg0.N) : (iblk m c 8 t : Vec Ideal S256x1 .f32) = arg8 m c := by
  funext x
  obtain ⟨e0, e1⟩ := index8 t
  unfold iblk
  rw [View.read_apply]
  show V m c main_arg8 _ = m (c.tc.loc main_arg8) _
  unfold V
  congr 1
  funext a
  apply Fin.ext
  match a with
  | ⟨0, _⟩ => show win0_8.index t (0 : Fin 2) * 256 + 1 * (x 0).val = (x 0).val; omega
  | ⟨1, _⟩ => show win0_8.index t (1 : Fin 2) * 1 + 1 * (x 1).val = (x 1).val; omega
theorem block9 (c : Dev nD) (t : Fin cfg0.N) : (iblk m c 9 t : Vec Ideal S1 .f32) = arg9 m c := by
  funext x
  have e0 := index9 t
  unfold iblk
  rw [View.read_apply]
  show V m c main_arg9 _ = m (c.tc.loc main_arg9) _
  unfold V
  congr 1
  funext a
  apply Fin.ext
  match a with
  | ⟨0, _⟩ => show win0_9.index t (0 : Fin 1) * 1 + 1 * (x 0).val = (x 0).val; omega

/-- So graph `p` of point `t`'s blocks scores as graph `8 t + p` of the arguments. -/
theorem block_score (c : Dev nD) (t : Fin cfg0.N) (p : Fin 8) :
    scoreOf (iblk m c 0 t : Vec Ideal S8x128x128 .f32) (iblk m c 1 t : Vec Ideal S8x128x128 .f32)
        (iblk m c 2 t : Vec Ideal S128x256 .f32) (iblk m c 3 t : Vec Ideal S256 .f32)
        (iblk m c 4 t : Vec Ideal S256x256 .f32) (iblk m c 5 t : Vec Ideal S256 .f32)
        (iblk m c 6 t : Vec Ideal S256x256 .f32) (iblk m c 7 t : Vec Ideal S256 .f32)
        (iblk m c 8 t : Vec Ideal S256x1 .f32) (iblk m c 9 t : Vec Ideal S1 .f32) p
      = scoreAt m c (graphAt t p) := by
  have hX : graphOf (iblk m c 0 t : Vec Ideal S8x128x128 .f32) p = graphOf (arg0 m c) (graphAt t p) :=
    funext fun i => funext fun j => features_block m c t p i j
  have hA : graphOf (iblk m c 1 t : Vec Ideal S8x128x128 .f32) p = graphOf (arg1 m c) (graphAt t p) :=
    funext fun i => funext fun j => adjacency_block m c t p i j
  unfold scoreAt scoreOf
  rw [hX, hA, block2 m c t, block3 m c t, block4 m c t, block5 m c t, block6 m c t, block7 m c t, block8 m c t, block9 m c t]

/-! ## What each point writes back, and the result array after the region -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- WHAT POINT `t` WRITES BACK is block `t` of the column of scores. -/
theorem flushed_eq (c : Dev nD) (t : Fin cfg0.N) :
    (dats m 0 c).flushed 10 t = ((cfg0.win 10).blk t).view.read (Elt Ideal) (column m c) := by
  show (cfg0.win 10).cut (grid0.coords t) ((dats m 0 c).after 10 t) = _
  rw [after0_10]
  unfold out0_10
  rw [View.canon_unit_zero hz2]
  simp only [View.ld_unit_zero (S := S8x128x128) hz3, View.ld_unit_zero (S := S128x256) hz2, View.ld_unit_zero (S := S256) hz1,
    View.ld_unit_zero (S := S256x256) hz2, View.ld_unit_zero (S := S256x1) hz2, View.ld_unit_zero (S := S1) hz1]
  refine stored_eq (iblk m c 0 t) (iblk m c 1 t) (iblk m c 2 t) (iblk m c 3 t) (iblk m c 4 t) (iblk m c 5 t) (iblk m c 6 t)
    (iblk m c 7 t) (iblk m c 8 t) (iblk m c 9 t) (((cfg0.win 10).blk t).view.read (Elt Ideal) (column m c)) (fun p u => ?_)
  obtain ⟨e0, e1⟩ := index10 t
  rw [block_score m c t p]
  show column m c (((cfg0.win 10).blk t).view.emb (ix2 p u)) = scoreAt m c (graphAt t p)
  unfold column
  congr 1
  apply Fin.ext
  show win0_10.index t (0 : Fin 2) * 8 + 1 * p.val = 8 * t.val + p.val
  omega

/-- An index of the result is in point `t`'s block iff each coordinate is in the block's range on its axis. -/
theorem mem_block (t : Fin cfg0.N) (i : S512x1.Idx) :
    i ∈ ((cfg0.win 10).blk t).view.set ↔ ∀ a : Fin 2, win0_10.index t a * S8x1.size a ≤ (i a).val ∧ (i a).val < win0_10.index t a * S8x1.size a + S8x1.size a := by
  show i ∈ ((View.whole main_v0).slice (win0_10.rect t)).set ↔ _
  rw [View.set_slice_whole, Rect.mem_set_unit]
  exact Iff.rfl

/-- Row `r` of the result is in the block of point `r / 8`. -/
theorem covered (i : S512x1.Idx) : ∃ t : Fin cfg0.N, (cfg0.win 10).flush t = true ∧ i ∈ ((cfg0.win 10).blk t).view.set := by
  have h0 : (i 0).val < 512 := (i 0).isLt
  have h1 : (i 1).val < 1 := (i 1).isLt
  refine ⟨⟨(i 0).val / 8, by rw [show cfg0.N = 64 from N_0]; omega⟩, flush0_10 _, ?_⟩
  rw [mem_block]
  obtain ⟨e0, e1⟩ := index10 ⟨(i 0).val / 8, by rw [show cfg0.N = 64 from N_0]; omega⟩
  intro a
  match a with
  | ⟨0, _⟩ =>
    show win0_10.index ⟨(i 0).val / 8, _⟩ (0 : Fin 2) * 8 ≤ (i 0).val ∧ (i 0).val < win0_10.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_10.index ⟨(i 0).val / 8, _⟩ (1 : Fin 2) * 1 ≤ (i 1).val ∧ (i 1).val < win0_10.index ⟨(i 0).val / 8, _⟩ (1 : Fin 2) * 1 + 1
    rw [e1]; omega

/-- THE RESULT ARRAY after the region: every graph's score. -/
theorem final (c : Dev nD) : (dats m 0 c).arrAt 10 cfg0.N = column m c :=
  (dats m 0 c).arrAt_eq_of_cover 10 (column m c) (fun t _ => flushed_eq m c t) (covered)

/-! ## The reshape after the region, and the run -/

/-- What the program returns: the reshape of the result array, which is the scores. -/
theorem returned (c : Dev nD) : Pipeline.afterTail₀ cfgs (dats m) 0 (V0 m) [hostOps1] c main_v1 = scores m c := by
  have hw : Pipeline.withArrays spec0 c (V0 m c) (fun w => (dats m 0 c).arrAt w cfg0.N) (Proc.devRef .tc (Pipeline.arrRef spec0 10))
      = column m c :=
    (Pipeline.withArrays_arr spec0 launch0.win.arr_inj c (V0 m c) (fun w => (dats m 0 c).arrAt w cfg0.N) 10).trans (final m c)
  unfold Pipeline.afterTail₀
  show StableHlo.after hostOps1 _ (Proc.devRef .tc main_v1) = _
  after_results
  funext i
  obtain ⟨g, rfl⟩ : ∃ g : Fin 512, i = ix1 g := ⟨i 0, eq_ix1 i⟩
  show shapeCast S512 (Pipeline.withArrays spec0 c (V0 m c) (fun w => (dats m 0 c).arrAt w cfg0.N)
    (Proc.devRef .tc (Pipeline.arrRef spec0 10))) shapeCasts_S512x1_S512 (ix1 g) = scoreAt m c g
  rw [hw]
  refine (shapeCast_apply (column m c) shapeCasts_S512x1_S512 (ix1 g) (ix2 g (0 : Fin 1)) ?_).trans rfl
  rw [Shape.rowMajor_val_two, Shape.rowMajor_val_one]
  show g.val * 1 + 0 = g.val
  omega

/-- The returned buffer is no array of the pipeline. -/
theorem returned_rest : main_v1 ∈ Pipeline.restRefs sig spec0 :=
  Pipeline.mem_restRefs_of main_v1 rfl (by decide)

/-- THE RUN, READ: every weakly fair execution ends with the returned buffer at the scores and the arguments unchanged. -/
theorem run : θ_run defs (onTc (τ := τ) (main (F := Ideal))) ⟨m, fun _ => 0, ρ⟩ (fun r => ∀ c : Dev nD,
      r.2.mem ((c.tc : Thread nD τ).loc main_v1) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v1 returned_rest).trans (returned m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Whole

end
-- ==== Proof.RefValue.lean ====
/-
  The reference's result, graph by graph, is the score of that graph.

  The reference runs the three layers on the whole stack of 512 graphs at once: a batched product with the adjacency, a
  product with the weights over the feature axis, the bias broadcast over graphs and nodes, the positive part; then the
  sum over the node axis from zero, the quotient by 128, the product with the head's column and its bias, and a reshape
  of the 512 × 1 result to 512 numbers. Read at graph `g`, every step touches graph `g`'s slices only.
-/
import proofs.«130525_j41824391529182_1_alg».proof.Proof.Gen.ReferenceIdeal.Read
import proofs.«130525_j41824391529182_1_alg».proof.Proof.Layer
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Gcn

/-! ## The operand indices of each step, at an index given by its coordinates -/

section Indices
variable (g : Fin 512) (i j : Fin 128) (d : Fin 128) (c k : Fin 256)

/- the first layer's neighbourhood sum and its product with the weights -/
theorem adj1 : lidx_main_v0 (ix3 g i d) j = ix3 g i j := funext fun a => by
    match a with
    | ⟨0, _⟩ => rfl
    | ⟨1, _⟩ => rfl
    | ⟨2, _⟩ => rfl
theorem feat1 : ridx_main_v0 (ix3 g i d) j = ix3 g j d := funext fun a => by
    match a with
    | ⟨0, _⟩ => rfl
    | ⟨1, _⟩ => rfl
    | ⟨2, _⟩ => rfl
theorem agg1 : lidx_main_v1 (ix3 g i c) d = ix3 g i d := funext fun a => by
    match a with
    | ⟨0, _⟩ => rfl
    | ⟨1, _⟩ => rfl
    | ⟨2, _⟩ => rfl
theorem wt1 : ridx_main_v1 (ix3 g i c) d = ix2 d c := funext fun a => by
    match a with
    | ⟨0, _⟩ => rfl
    | ⟨1, _⟩ => rfl
theorem bias1 : idx_main_v2 (idx_main_v3 (ix3 g i c)) = ix1 c := funext fun a => by
    match a with
    | ⟨0, _⟩ => rfl
/- the second layer's -/
theorem adj2 : lidx_main_v6 (ix3 g i c) j = ix3 g i j := funext fun a => by
    match a with
    | ⟨0, _⟩ => rfl
    | ⟨1, _⟩ => rfl
    | ⟨2, _⟩ => rfl
theorem feat2 : ridx_main_v6 (ix3 g i c) j = ix3 g j c := funext fun a => by
    match a with
    | ⟨0, _⟩ => rfl
    | ⟨1, _⟩ => rfl
    | ⟨2, _⟩ => rfl
theorem agg2 : lidx_main_v7 (ix3 g i c) k = ix3 g i k := funext fun a => by
    match a with
    | ⟨0, _⟩ => rfl
    | ⟨1, _⟩ => rfl
    | ⟨2, _⟩ => rfl
theorem wt2 : ridx_main_v7 (ix3 g i c) k = ix2 k c := funext fun a => by
    match a with
    | ⟨0, _⟩ => rfl
    | ⟨1, _⟩ => rfl
theorem bias2 : idx_main_v8 (idx_main_v9 (ix3 g i c)) = ix1 c := funext fun a => by
    match a with
    | ⟨0, _⟩ => rfl
/- the third layer's -/
theorem adj3 : lidx_main_v12 (ix3 g i c) j = ix3 g i j := funext fun a => by
    match a with
    | ⟨0, _⟩ => rfl
    | ⟨1, _⟩ => rfl
    | ⟨2, _⟩ => rfl
theorem feat3 : ridx_main_v12 (ix3 g i c) j = ix3 g j c := funext fun a => by
    match a with
    | ⟨0, _⟩ => rfl
    | ⟨1, _⟩ => rfl
    | ⟨2, _⟩ => rfl
theorem agg3 : lidx_main_v13 (ix3 g i c) k = ix3 g i k := funext fun a => by
    match a with
    | ⟨0, _⟩ => rfl
    | ⟨1, _⟩ => rfl
    | ⟨2, _⟩ => rfl
theorem wt3 : ridx_main_v13 (ix3 g i c) k = ix2 k c := funext fun a => by
    match a with
    | ⟨0, _⟩ => rfl
    | ⟨1, _⟩ => rfl
theorem bias3 : idx_main_v14 (idx_main_v15 (ix3 g i c)) = ix1 c := funext fun a => by
    match a with
    | ⟨0, _⟩ => rfl
/- the readout's: the reshape, the head's product, the sum over the nodes, the head's bias -/
theorem unsq : idx_main_v25 (ix1 g) = ix2 g (0 : Fin 1) := funext fun a => by
    match a with
    | ⟨0, _⟩ => exact Fin.ext (Nat.div_one _)
    | ⟨1, _⟩ => rfl
theorem pooled (u : Fin 1) : lidx_main_v21 (ix2 g u) k = ix2 g k := funext fun a => by
    match a with
    | ⟨0, _⟩ => rfl
    | ⟨1, _⟩ => rfl
theorem headCol (u : Fin 1) : ridx_main_v21 (ix2 g u) k = ix2 k u := funext fun a => by
    match a with
    | ⟨0, _⟩ => rfl
    | ⟨1, _⟩ => rfl
theorem nodes : idx_main_v18 (ix2 g c) i = ix3 g i c := funext fun a => by
    match a with
    | ⟨0, _⟩ => rfl
    | ⟨1, _⟩ => rfl
    | ⟨2, _⟩ => rfl
theorem biasH (u : Fin 1) : idx_main_v22 (idx_main_v23 (ix2 g u)) = ix1 (0 : Fin 1) := funext fun a => by
    match a with
    | ⟨0, _⟩ => rfl

end Indices

variable (x0 x1 : (⟨S512x128x128, .f32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x1, .f32⟩ : BufTy).Contents (Elt Ideal)) (x9 : (⟨S1, .f32⟩ : BufTy).Contents (Elt Ideal))

/-- The first layer's output at graph `g`, node `i`, feature `c`. -/
theorem layer1_apply (g : Fin 512) (i : Fin 128) (c : Fin 256) :
    val_main_v5 (F := Ideal) x0 x1 x2 x3 (ix3 g i c)
      = layer (graphOf x1 g) (graphOf x0 g) (matOf x2) (rowOf x3) i c := by
  rw [val_main_v5_apply, val_main_v4_apply, val_main_v1_apply, val_main_v3_apply, val_main_v2_apply,
    val_main_call0_v0_apply, val_main_call0_cst_apply]
  simp only [val_main_v0_apply, Ideal.maximumf_def, Ideal.addf_def, Ideal.ofBits_def, Ideal.ofBits_zero_f32,
    adj1, feat1, agg1, wt1, bias1]
  rfl

/-- The second layer's output at graph `g`, node `i`, feature `c`. -/
theorem layer2_apply (g : Fin 512) (i : Fin 128) (c : Fin 256) :
    val_main_v11 (F := Ideal) x0 x1 x2 x3 x4 x5 (ix3 g i c)
      = layer (graphOf x1 g) (layer (graphOf x1 g) (graphOf x0 g) (matOf x2) (rowOf x3)) (matOf x4) (rowOf x5) i c := by
  rw [val_main_v11_apply, val_main_v10_apply, val_main_v7_apply, val_main_v9_apply, val_main_v8_apply,
    val_main_call1_v0_apply, val_main_call1_cst_apply]
  simp only [val_main_v6_apply, Ideal.maximumf_def, Ideal.addf_def, Ideal.ofBits_def, Ideal.ofBits_zero_f32,
    adj2, feat2, agg2, wt2, bias2, layer1_apply]
  rfl

/-- The third layer's output at graph `g`, node `i`, feature `c`. -/
theorem layer3_apply (g : Fin 512) (i : Fin 128) (c : Fin 256) :
    val_main_v17 (F := Ideal) x0 x1 x2 x3 x4 x5 x6 x7 (ix3 g i c)
      = layer (graphOf x1 g) (layer (graphOf x1 g) (layer (graphOf x1 g) (graphOf x0 g) (matOf x2) (rowOf x3)) (matOf x4) (rowOf x5))
          (matOf x6) (rowOf x7) i c := by
  rw [val_main_v17_apply, val_main_v16_apply, val_main_v13_apply, val_main_v15_apply, val_main_v14_apply,
    val_main_call2_v0_apply, val_main_call2_cst_apply]
  simp only [val_main_v12_apply, Ideal.maximumf_def, Ideal.addf_def, Ideal.ofBits_def, Ideal.ofBits_zero_f32,
    adj3, feat3, agg3, wt3, bias3, layer2_apply]
  rfl

/-- THE REFERENCE'S RESULT at graph `g` is that graph's score. -/
theorem result_apply (g : Fin 512) :
    val_main_v25 (F := Ideal) x0 x1 x2 x3 x4 x5 x6 x7 x8 x9 (ix1 g) = scoreOf x0 x1 x2 x3 x4 x5 x6 x7 x8 x9 g := by
  rw [val_main_v25_apply, unsq, val_main_v24_apply, val_main_v21_apply, val_main_v23_apply, val_main_v22_apply]
  simp only [val_main_v20_apply, val_main_v18_apply, val_main_v19_apply, val_main_cst_0_apply, val_main_cst_apply,
    Ideal.hostDivf_def, Ideal.addf_def, Ideal.ofBits_def, Ideal.ofBits_zero_f32, zero_add,
    pooled, headCol, nodes, biasH, layer3_apply]
  rfl

end Cert.ReferenceIdeal.RefValue

end
-- ==== Proof.lean ====
/-
  A three-layer graph convolution network with a mean readout, scored for 512 graphs of 128 nodes: the kernel against
  the plain array program.

  Per graph, with adjacency `A`, node features `X`, weights `W₁ W₂ W₃`, biases `b₁ b₂ b₃`, head `w`, `β`:
      H₁ = max ((A X) W₁ + b₁) 0,  H₂ = max ((A H₁) W₂ + b₂) 0,  H₃ = max ((A H₂) W₃ + b₃) 0,
      score = ∑ h, ((∑ i, H₃ i h) / 128) · w h + β.
  The kernel takes the graphs eight at a time: it multiplies each graph's adjacency into its features, stacks the eight
  graphs' 1024 node rows for the product with the weights, unstacks them, and at the end sums over the nodes, divides by
  128 and applies the head; its changes of float format are the identity on the extended reals. The reference does the
  same products on the whole stack of 512 graphs. Every sum is taken over the same index set in the same grouping on
  both sides — (A X) W, never A (X W) — so the two results are equal term by term: nothing is distributed, cancelled or
  moved across a sum, and the finiteness of the inputs is never used. The literal 128 is the same word on both sides.

  The kernel's value is read off its frame run: what each grid point writes back is its eight graphs' scores, the 64
  blocks tile the 512 × 1 result, and the reshape after the region keeps each score at its graph. The reference's value
  is read off its run one operation at a time. The idealization rewrote nothing, so `preserves` has nothing to state.
-/
import proofs.«130525_j41824391529182_1_alg».proof.Defs
import proofs.«130525_j41824391529182_1_alg».proof.Proof.Gen.Kernel
import proofs.«130525_j41824391529182_1_alg».proof.Proof.Gen.Kernel.Skeleton
import proofs.«130525_j41824391529182_1_alg».proof.Proof.Gen.Kernel.Launch
import proofs.«130525_j41824391529182_1_alg».proof.Proof.Gen.Kernel.Points
import proofs.«130525_j41824391529182_1_alg».proof.Proof.Gen.Kernel.Frame
import proofs.«130525_j41824391529182_1_alg».proof.Proof.Gen.KernelIdeal
import proofs.«130525_j41824391529182_1_alg».proof.Proof.Gen.KernelIdeal.Skeleton
import proofs.«130525_j41824391529182_1_alg».proof.Proof.Gen.KernelIdeal.Launch
import proofs.«130525_j41824391529182_1_alg».proof.Proof.Gen.KernelIdeal.Points
import proofs.«130525_j41824391529182_1_alg».proof.Proof.Gen.KernelIdeal.Frame
import proofs.«130525_j41824391529182_1_alg».proof.Proof.Gen.ReferenceIdeal
import proofs.«130525_j41824391529182_1_alg».proof.Proof.Gen.ReferenceIdeal.Run
import proofs.«130525_j41824391529182_1_alg».proof.Proof.Gen.ReferenceIdeal.Read
import proofs.«130525_j41824391529182_1_alg».proof.Proof.Gen.Pre_finite_inputs
import proofs.«130525_j41824391529182_1_alg».proof.Proof.KernelRun
import proofs.«130525_j41824391529182_1_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel terminates, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs return every graph's score. -/
theorem algebraic : Cert.algebraic_KernelIdeal_ReferenceIdeal := by
  intro m ρ m' ρ' _ hagree
  refine ⟨fun c => Cert.KernelIdeal.Whole.scores m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (F := Ideal) _ _ _ _ _ _ _ _ _ _).trans ?_
  funext i
  obtain ⟨g, rfl⟩ : ∃ g : Fin 512, i = ix1 g := ⟨i 0, eq_ix1 i⟩
  rw [Cert.ReferenceIdeal.RefValue.result_apply]
  obtain ⟨h0, h1, h2, h3, h4, h5, h6, h7, h8, h9⟩ := hagree c
  rw [h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
